-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S512x3200 : Shape := ⟨2, ![512, 3200]⟩
abbrev S512x1 : Shape := ⟨2, ![512, 1]⟩
abbrev S512x128 : Shape := ⟨2, ![512, 128]⟩
abbrev S512 : Shape := ⟨1, ![512]⟩

abbrev nBuf : Space → Nat
  | .hbm => 5
  | .vmem => 5
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S8192, .f32⟩
  | .local _ .vmem, ⟨0, _⟩ => ⟨S512x3200, .f32⟩
  | .local _ .vmem, ⟨1, _⟩ => ⟨S512x3200, .f32⟩
  | .local _ .vmem, ⟨2, _⟩ => ⟨S512x1, .i32⟩
  | .local _ .vmem, ⟨3, _⟩ => ⟨S512x1, .f32⟩
  | .local _ .vmem, ⟨4, _⟩ => ⟨S512x128, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v165 : BitVec 1 := Scalar.cmpi .eq arg1 c9_i32
  let v166 : BitVec 32 := Scalar.extui v165
  let c0_i32_104 : BitVec 32 := 0#32
  let v167 : BitVec 1 := Scalar.cmpi .ne v166 c0_i32_104
  v167

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  shapeCasts_S8192_S8192x1 : S8192.ShapeCasts S8192x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S512x3200_d1_w32 : S512x3200.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3200 : S512x1.Broadcasts S512x3200
  inb_S512x3200_S512x3200_0_0 : ∀ a, (![0, 0] : Fin 2 → Nat) a + S512x3200.size a ≤ S512x3200.size a
  h_S512x3200 : 0 < S512x3200.numel
  slices_S512x3200_o0_0_S512x128 : S512x3200.Slices ![0, 0] S512x128
  slices_S512x3200_o0_128_S512x128 : S512x3200.Slices ![0, 128] S512x128
  slices_S512x3200_o0_256_S512x128 : S512x3200.Slices ![0, 256] S512x128
  slices_S512x3200_o0_384_S512x128 : S512x3200.Slices ![0, 384] S512x128
  slices_S512x3200_o0_512_S512x128 : S512x3200.Slices ![0, 512] S512x128
  slices_S512x3200_o0_640_S512x128 : S512x3200.Slices ![0, 640] S512x128
  slices_S512x3200_o0_768_S512x128 : S512x3200.Slices ![0, 768] S512x128
  slices_S512x3200_o0_896_S512x128 : S512x3200.Slices ![0, 896] S512x128
  slices_S512x3200_o0_1024_S512x128 : S512x3200.Slices ![0, 1024] S512x128
  slices_S512x3200_o0_1152_S512x128 : S512x3200.Slices ![0, 1152] S512x128
  slices_S512x3200_o0_1280_S512x128 : S512x3200.Slices ![0, 1280] S512x128
  slices_S512x3200_o0_1408_S512x128 : S512x3200.Slices ![0, 1408] S512x128
  slices_S512x3200_o0_1536_S512x128 : S512x3200.Slices ![0, 1536] S512x128
  slices_S512x3200_o0_1664_S512x128 : S512x3200.Slices ![0, 1664] S512x128
  slices_S512x3200_o0_1792_S512x128 : S512x3200.Slices ![0, 1792] S512x128
  slices_S512x3200_o0_1920_S512x128 : S512x3200.Slices ![0, 1920] S512x128
  slices_S512x3200_o0_2048_S512x128 : S512x3200.Slices ![0, 2048] S512x128
  slices_S512x3200_o0_2176_S512x128 : S512x3200.Slices ![0, 2176] S512x128
  slices_S512x3200_o0_2304_S512x128 : S512x3200.Slices ![0, 2304] S512x128
  slices_S512x3200_o0_2432_S512x128 : S512x3200.Slices ![0, 2432] S512x128
  slices_S512x3200_o0_2560_S512x128 : S512x3200.Slices ![0, 2560] S512x128
  slices_S512x3200_o0_2688_S512x128 : S512x3200.Slices ![0, 2688] S512x128
  slices_S512x3200_o0_2816_S512x128 : S512x3200.Slices ![0, 2816] S512x128
  slices_S512x3200_o0_2944_S512x128 : S512x3200.Slices ![0, 2944] S512x128
  slices_S512x3200_o0_3072_S512x128 : S512x3200.Slices ![0, 3072] S512x128
  reduces_S512x128_S512 : S512x128.Reduces [1] S512
  shapeCasts_S512_S512x1 : S512.ShapeCasts S512x1
  shapeCasts_S8192x1_S8192 : S8192x1.ShapeCasts S8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S8192x32000.size a
  hwx0_0 : ∀ i : grid0.Coords, EltTy.bits .f32 = 32 ∨ (Rect.block (s := S8192x32000) S512x3200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x2 : Shape := ⟨2, ![8192, 2]⟩

abbrev nBuf : Space → Nat
  | .hbm => 30
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x32000, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x1, .i32⟩
  | .hbm, ⟨20, _⟩ => ⟨S8192x2, .i32⟩
  | .hbm, ⟨21, _⟩ => ⟨S_, .f32⟩
  | .hbm, ⟨22, _⟩ => ⟨S8192, .f32⟩
  | .hbm, ⟨23, _⟩ => ⟨S8192x32000, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x32000_S8192_d1 : S8192x32000.ReducesTo [1] S8192
  h_S_ : 0 < S_.numel
  scatter_S8192x32000_S8192x2_S8192_n_01_01_1_wf : ScatterDims.WF S8192x32000 S8192x2 S8192 [] [0, 1] [0, 1] 1

variable [Facts₀]

def scatter_S8192x32000_S8192x2_S8192_n_01_01_1 : ScatterDims S8192x32000 S8192x2 S8192 where
  updateWindowDims := []
  insertedWindowDims := [0, 1]
  scatterDimsToOperandDims := [0, 1]
  indexVectorDim := 1
  wf := scatter_S8192x32000_S8192x2_S8192_n_01_01_1_wf

class Facts : Prop extends Facts₀ where

variable [Facts]
-- ==== Proof.KernelPieces.lean ====
/-
  What one grid point of the kernel leaves behind, as plain functions of what it read.

  The body keeps a [512, 128] accumulator of lane-partial sums in a scratch buffer. At a grid point it forms the
  masked block (the logarithms of the point's [512, 3200] block of the table, with `0` where the column is the row's
  class), cuts it into 25 slices of 128 columns and adds them to the accumulator one after the other, storing and
  reloading the whole accumulator between two additions. At the first of a row block's ten points the accumulator
  is first reset to zero; at the last one the accumulator's rows are summed over the 128 lanes, negated and divided
  by 32000 into the output block. Every store fills its whole buffer, so after a point the scratch holds the last
  store's value, and every reload reads the value stored just before it.
-/
import proofs.«404897_j64183991272155_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Lanes
open Cert.KernelIdeal Cert.KernelIdeal.Gen
variable {F : FTy → Type} [FloatOps F]

theorem hz : (![0, 0] : Fin 2 → Nat) = fun _ => 0 := funext fun a => by fin_cases a <;> rfl

/-- A load of the whole buffer after a list of stores whose LAST one filled the whole buffer reads that store's
    payload, whatever was stored before. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- One grid point's work on the lane accumulator: the 25 column slices of the masked block, 128 lanes each, added to
    `acc` one after the other, first to last. -/
def lanes (i : grid0.Coords) (x1 : Vec F S512x1 .i32) (x0 : Vec F S512x3200 .f32) (acc : Vec F S512x128 .f32) :
    FVec F S512x128 .f32 :=
  k0_pay30 (k0_pay3 i x1 x0) (k0_pay29 (k0_pay3 i x1 x0) (k0_pay28 (k0_pay3 i x1 x0) (k0_pay27 (k0_pay3 i x1 x0)
  (k0_pay26 (k0_pay3 i x1 x0) (k0_pay25 (k0_pay24 (k0_pay3 i x1 x0) (k0_pay23 (k0_pay3 i x1 x0) (k0_pay22 (k0_pay3 i x1 x0)
  (k0_pay21 (k0_pay3 i x1 x0) (k0_pay20 (k0_pay3 i x1 x0) (k0_pay19 (k0_pay3 i x1 x0) (k0_pay18 (k0_pay3 i x1 x0)
  (k0_pay17 (k0_pay3 i x1 x0) (k0_pay16 (k0_pay3 i x1 x0) (k0_pay15 (k0_pay3 i x1 x0) (k0_pay14 (k0_pay3 i x1 x0)
  (k0_pay13 (k0_pay12 (k0_pay3 i x1 x0) (k0_pay11 (k0_pay3 i x1 x0) (k0_pay10 (k0_pay3 i x1 x0) (k0_pay9 (k0_pay3 i x1 x0)
  (k0_pay8 (k0_pay3 i x1 x0) (k0_pay7 (k0_pay3 i x1 x0) (k0_pay6 i x1 x0 (k0_pay5 i x1 x0 (k0_pay4 i x1 x0 acc))))))))))))))))))))))))))

/-- A middle point of a row block (neither its first nor its last): the scratch, found at `xs0`, is left at
    `lanes` of it. -/
theorem scratch_B (c : Dev nD) (i : grid0.Coords) (a2 : Memref sig .tc .vmem S512x3200 .f32) (h2 : a2.IsWhole)
    (a3 : Memref sig .tc .vmem S512x1 .i32) (h3 : a3.IsWhole) (a4 : Memref sig .tc .vmem S512x1 .f32) (h4 : a4.IsWhole)
    (a5 : Memref sig .tc .vmem S512x128 .f32) (h5 : a5.IsWhole) (hc0 : ¬cond0_0 i) (hc1 : ¬cond0_1 i)
    (x0 : Vec F S512x3200 .f32) (x1 : Vec F S512x1 .i32) (xs0 : Vec F S512x128 .f32) :
    sout0_B_0 c i a2 h2 a3 h3 a4 h4 a5 h5 hc0 hc1 x0 x1 xs0 = lanes i x1 x0 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_cons_unit_zero (S := S512x128) hz]
  simp only [View.readAt_eq_ld, h2.read_unread, h3.read_unread, h5.read_unread, View.ld_unit_zero (S := S512x3200) hz,
    View.ld_unit_zero (S := S512x1) hz, View.ld_unit_zero (S := S512x128) hz,
    readCov_cons_whole (S := S512x128) _ hz]
  rfl

/-- The last point of a row block: the scratch is left at `lanes` of what it held, as at a middle point, -/
theorem scratch_C (c : Dev nD) (i : grid0.Coords) (a2 : Memref sig .tc .vmem S512x3200 .f32) (h2 : a2.IsWhole)
    (a3 : Memref sig .tc .vmem S512x1 .i32) (h3 : a3.IsWhole) (a4 : Memref sig .tc .vmem S512x1 .f32) (h4 : a4.IsWhole)
    (a5 : Memref sig .tc .vmem S512x128 .f32) (h5 : a5.IsWhole) (hc0 : ¬cond0_0 i) (hc1 : cond0_1 i)
    (x0 : Vec F S512x3200 .f32) (x1 : Vec F S512x1 .i32) (xs0 : Vec F S512x128 .f32) :
    sout0_C_0 c i a2 h2 a3 h3 a4 h4 a5 h5 hc0 hc1 x0 x1 xs0 = lanes i x1 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_cons_unit_zero (S := S512x128) hz]
  simp only [View.readAt_eq_ld, h2.read_unread, h3.read_unread, h5.read_unread, View.ld_unit_zero (S := S512x3200) hz,
    View.ld_unit_zero (S := S512x1) hz, View.ld_unit_zero (S := S512x128) hz,
    readCov_cons_whole (S := S512x128) _ hz]
  rfl

/-- and the output block is the closing arithmetic (`k0_pay1`: the lane sum, negated, over 32000) of that final
    accumulator. -/
theorem out_C (c : Dev nD) (i : grid0.Coords) (a2 : Memref sig .tc .vmem S512x3200 .f32) (h2 : a2.IsWhole)
    (a3 : Memref sig .tc .vmem S512x1 .i32) (h3 : a3.IsWhole) (a4 : Memref sig .tc .vmem S512x1 .f32) (h4 : a4.IsWhole)
    (a5 : Memref sig .tc .vmem S512x128 .f32) (h5 : a5.IsWhole) (hc0 : ¬cond0_0 i) (hc1 : cond0_1 i)
    (x0 : Vec F S512x3200 .f32) (x1 : Vec F S512x1 .i32) (xs0 : Vec F S512x128 .f32) :
    out0_C_2 c i a2 h2 a3 h3 a4 h4 a5 h5 hc0 hc1 x0 x1 xs0 = k0_pay1 (lanes i x1 x0 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S512x1) hz]
  simp only [View.readAt_eq_ld, h2.read_unread, h3.read_unread, h5.read_unread, View.ld_unit_zero (S := S512x3200) hz,
    View.ld_unit_zero (S := S512x1) hz, View.ld_unit_zero (S := S512x128) hz,
    readCov_cons_whole (S := S512x128) _ hz]
  rfl

/-- The first point of a row block: the scratch is reset to the zero block (`k0_pay2`) and left at `lanes` of that. -/
theorem scratch_A (c : Dev nD) (i : grid0.Coords) (a2 : Memref sig .tc .vmem S512x3200 .f32) (h2 : a2.IsWhole)
    (a3 : Memref sig .tc .vmem S512x1 .i32) (h3 : a3.IsWhole) (a4 : Memref sig .tc .vmem S512x1 .f32) (h4 : a4.IsWhole)
    (a5 : Memref sig .tc .vmem S512x128 .f32) (h5 : a5.IsWhole) (hc0 : cond0_0 i) (hc1 : ¬cond0_1 i)
    (x0 : Vec F S512x3200 .f32) (x1 : Vec F S512x1 .i32) :
    sout0_A_0 c i a2 h2 a3 h3 a4 h4 a5 h5 hc0 hc1 x0 x1 = lanes i x1 x0 k0_pay2 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x128) hz]
  simp only [View.readAt_eq_ld, h2.read_unread, h3.read_unread, h5.read_unread, View.ld_unit_zero (S := S512x3200) hz,
    View.ld_unit_zero (S := S512x1) hz, View.ld_unit_zero (S := S512x128) hz,
    readCov_cons_whole (S := S512x128) _ hz]
  rfl

end Cert.KernelIdeal.Lanes
end
-- ==== Proof.LaneValues.lean ====
/-
  One grid point's arithmetic read at an entry, over the extended reals.

  The masked block at row `r`, column `q` is `0` when the column's number equals the row's class word minus 3200
  times the point's column-block number (32-bit words), and the logarithm of the table's entry otherwise. The 25
  slices the body adds to the accumulator are the columns `128·k + l` of that block, `k = 0 … 24`, so at lane `l`
  the accumulator gains their sum. The closing arithmetic sums a row's 128 lanes, negates and divides by 32000.
-/
import proofs.«404897_j64183991272155_3_alg».proof.Proof.KernelPieces
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

open Idealize.ShloMosaic Idealize.ShloMosaic.TcCoe Idealize.ShloMosaic.ValueIdx

namespace Cert.KernelIdeal.Lanes
open Cert.KernelIdeal Cert.KernelIdeal.Gen

/-- Column `q` of row `r` of a [512, 3200] block, read as `0` beyond the block's last column. -/
def colN (v : S512x3200.Idx → EReal) (r : Fin 512) (q : ℕ) : EReal :=
  if hq : q < 3200 then v (ix2 r ⟨q, hq⟩) else 0

theorem colN_of_lt (v : S512x3200.Idx → EReal) (r : Fin 512) (q : ℕ) (hq : q < 3200) :
    colN v r q = v (ix2 r ⟨q, hq⟩) := dif_pos hq

/-- A slice of 128 columns from column `off` reads, at lane `l`, column `off + l`. -/
theorem slice_apply (v : FVec Ideal S512x3200 .f32) (off : ℕ) (h : S512x3200.Slices ![0, off] S512x128)
    (r : Fin 512) (l : Fin 128) :
    extractStridedSlice S512x128 ![0, off] v h (ix2 r l) = colN v r (off + l.val) := by
  have hb : off + 128 ≤ 3200 := h.2 1
  have hl : l.val < 128 := l.isLt
  rw [colN_of_lt v r _ (by omega)]
  exact slice2_axis1_apply off v h r l _ rfl

/-- The masked block at an entry. -/
theorem masked_apply (i : grid0.Coords) (x1 : Vec Ideal S512x1 .i32) (x0 : Vec Ideal S512x3200 .f32)
    (r : Fin 512) (q : Fin 3200) :
    k0_pay3 (F := Ideal) i x1 x0 (ix2 r q)
      = if BitVec.ofNat 32 q.val = x1 (ix2 r 0) - BitVec.ofNat 32 (i 1).val * 3200#32 then 0
        else Ideal.log (x0 (ix2 r q)) := by
  unfold k0_pay3
  dsimp only
  have e1 : iota Kind.tc S512x3200 32 [1] iota_S512x3200_d1_w32 (ix2 r q) = BitVec.ofNat 32 q.val := by
    show BitVec.ofNat 32 (0 * 3200 + q.val) = _
    rw [Nat.zero_mul, Nat.zero_add]
  have e2 : ∀ (w : IVec S512x1 32), broadcastTo S512x3200 w broadcasts_S512x1_S512x3200 (ix2 r q) = w (ix2 r 0) := fun w =>
    broadcastTo_apply w broadcasts_S512x1_S512x3200 (ix2 r q) (ix2 r 0) (fun a => by
      match a with
      | ⟨0, _⟩ => rfl
      | ⟨1, _⟩ => rfl)
  rw [select_apply, broadcast_apply]
  show Scalar.select (IntOp.cmpi .eq (iota Kind.tc S512x3200 32 [1] iota_S512x3200_d1_w32 (ix2 r q)) (broadcastTo S512x3200 _ broadcasts_S512x1_S512x3200 (ix2 r q))) _ _ = _
  rw [e1, e2, shapeCast_self]
  show (if IntOp.cmpi .eq (BitVec.ofNat 32 q.val) (x1 (ix2 r 0) - BitVec.ofNat 32 (i 1).val * 3200#32) = 1 then Ideal.ofBits .f32 0#32 else Ideal.log (x0 (ix2 r q))) = _
  rw [Ideal.ofBits_zero_f32]
  by_cases hq : BitVec.ofNat 32 q.val = x1 (ix2 r 0) - BitVec.ofNat 32 (i 1).val * 3200#32
  · rw [if_pos hq]; exact if_pos (StableHlo.Predicate.cmpi_eq_iff.2 hq)
  · rw [if_neg hq]; exact if_neg (fun h => hq (StableHlo.Predicate.cmpi_eq_iff.1 h))

/-- The zero block. -/
theorem zero_apply (y : S512x128.Idx) : k0_pay2 (F := Ideal) y = 0 := by
  unfold k0_pay2
  rw [shapeCast_self, broadcast_apply]
  exact Ideal.ofBits_zero_f32

/-- One grid point's work at lane `l` of row `r`: the accumulator gains the block's columns `128·k + l`. -/
theorem lanes_apply (i : grid0.Coords) (x1 : Vec Ideal S512x1 .i32) (x0 : Vec Ideal S512x3200 .f32)
    (acc : Vec Ideal S512x128 .f32) (r : Fin 512) (l : Fin 128) :
    lanes (F := Ideal) i x1 x0 acc (ix2 r l)
      = acc (ix2 r l) + ∑ k ∈ Finset.range 25, colN (k0_pay3 (F := Ideal) i x1 x0) r (128 * k + l.val) := by
  unfold lanes k0_pay4 k0_pay5 k0_pay6 k0_pay7 k0_pay8 k0_pay9 k0_pay10 k0_pay11 k0_pay12 k0_pay13 k0_pay14 k0_pay15 k0_pay16
    k0_pay17 k0_pay18 k0_pay19 k0_pay20 k0_pay21 k0_pay22 k0_pay23 k0_pay24 k0_pay25 k0_pay26 k0_pay27 k0_pay28 k0_pay29 k0_pay30
  simp only [shapeCast_self, addf_apply, slice_apply]
  simp only [Finset.sum_range_succ, Finset.sum_range_zero, zero_add, add_assoc, Nat.mul_zero, Nat.mul_one, Nat.reduceMul]

/-- A row's lane sum: the reduction over the 128 lanes, read at a row. -/
theorem lane_sum (src : FVec Ideal S512x128 .f32) (hφ : FKind.Formats .f32)
    (hacc : (0x00000000#32 : BitVec 32) = 0x00000000#32) (r : Fin 512) :
    multiReduction .add [1] S512 src 0x00000000#32 reduces_S512x128_S512 hφ hacc (ix1 r) = ∑ l : Fin 128, src (ix2 r l) := by
  refine (Ideal.multiReduction_add_single src 0x00000000#32 reduces_S512x128_S512 hφ hacc (ix1 r)).trans ?_
  refine Finset.sum_congr rfl fun k _ => congrArg src (funext fun a => ?_)
  match a with
  | ⟨0, _⟩ => rfl
  | ⟨1, _⟩ => rfl

/-- The closing arithmetic at a row: minus the sum of the row's 128 lanes, over 32000. -/
theorem closing_apply (acc : Vec Ideal S512x128 .f32) (r : Fin 512) :
    k0_pay1 (F := Ideal) acc (ix2 r 0)
      = Ideal.div (-(∑ l : Fin 128, acc (ix2 r l))) (Ideal.ofBits .f32 0x46FA0000#32) := by
  unfold k0_pay1
  dsimp only
  rw [divf_apply, subf_apply, broadcast_apply, broadcast_apply]
  have e1 : ∀ (v : FVec Ideal S512 .f32), shapeCast S512x1 v shapeCasts_S512_S512x1 (ix2 r 0) = v (ix1 r) := fun v =>
    shapeCast_apply v shapeCasts_S512_S512x1 (ix2 r 0) (ix1 r) (by
      rw [Shape.rowMajor_val_one, Shape.rowMajor_val_two]; show r.val = r.val * 1 + 0; omega)
  rw [e1]
  refine congrArg (fun s => Ideal.div s (Ideal.ofBits .f32 0x46FA0000#32)) ?_
  show Ideal.ofBits .f32 0#32 - _ = _
  rw [Ideal.ofBits_zero_f32, zero_sub]
  exact congrArg Neg.neg (lane_sum acc _ _ r)

end Cert.KernelIdeal.Lanes
end
-- ==== Proof.Spec.lean ====
/-
  The masked row loss, as a function of the two argument arrays over the extended reals.

  For a table `pred` of 8192 rows and 32000 columns and one class word per row, the entry of
  row `r`, column `q` that enters the row's sum is `0` when `q` is the row's class and
  `log (pred r q)` otherwise; the row's loss is minus that sum, divided by 32000.
-/
import Idealize.ShloMosaic.PureOps.Ideal
import Idealize.ShloMosaic.PureOps.Ideal.Laws
import Idealize.ShloMosaic.Lib.ValueIdx

noncomputable section

namespace Cert.MaskedLogLoss

open Idealize.ShloMosaic Idealize.ShloMosaic.ValueIdx

/-- The table's shape and the class vector's. -/
abbrev STab : Shape := ⟨2, ![8192, 32000]⟩
abbrev SRow : Shape := ⟨1, ![8192]⟩

/-- The entry of row `r`, column `q` that enters the row's sum: `0` at the row's class, the logarithm of the
    table's entry elsewhere. -/
def entry (pred : STab.Idx → EReal) (cls : SRow.Idx → BitVec 32) (r : Fin 8192) (q : Fin 32000) : EReal :=
  if (cls (ix1 r)).toNat = q.val then 0 else Ideal.log (pred (ix2 r q))

/-- The loss of every row: minus the sum of the row's entries, divided by 32000. -/
def loss (pred : STab.Idx → EReal) (cls : SRow.Idx → BitVec 32) : SRow.Idx → EReal :=
  fun i => Ideal.div (-(∑ q : Fin 32000, entry pred cls (i 0) q)) (Ideal.ofBits .f32 0x46FA0000#32)

end Cert.MaskedLogLoss

end
-- ==== Proof.Regroup.lean ====
/-
  Regrouping a row's sum. The kernel meets the 32000 columns of a row as 10 blocks of 3200 columns, each block as 25
  slices of 128 lanes, and keeps one partial sum per lane: lane `l` gathers the columns `3200·j + 128·k + l`. Summing
  the 128 lane sums visits every column exactly once, so over a commutative monoid it is the row's sum.
-/
import proofs.«404897_j64183991272155_3_alg».proof.Proof.Spec
import Mathlib.Algebra.BigOperators.Intervals

noncomputable section

namespace Cert.MaskedLogLoss

open Idealize.ShloMosaic Idealize.ShloMosaic.ValueIdx

/-- A sum over `a·b` consecutive numbers, taken as `a` runs of `b`. -/
theorem sum_range_mul {M : Type*} [AddCommMonoid M] (f : ℕ → M) (a b : ℕ) :
    ∑ x ∈ Finset.range (a * b), f x = ∑ i ∈ Finset.range a, ∑ j ∈ Finset.range b, f (b * i + j) := by
  induction a with
  | zero => simp
  | succ a ih =>
    rw [Nat.succ_mul, Finset.sum_range_add, ih, Finset.sum_range_succ, Nat.mul_comm a b]

/-- The lanes' partial sums add up to the whole: every number below 32000 is `3200·j + 128·k + l` for exactly one
    block `j < 10`, slice `k < 25` and lane `l < 128`. -/
theorem sum_lanes_eq {M : Type*} [AddCommMonoid M] (f : ℕ → M) :
    ∑ l ∈ Finset.range 128, ∑ j ∈ Finset.range 10, ∑ k ∈ Finset.range 25, f (3200 * j + (128 * k + l))
      = ∑ Q ∈ Finset.range 32000, f Q := by
  rw [show (32000 : ℕ) = 10 * 3200 from rfl, sum_range_mul f 10 3200, Finset.sum_comm]
  refine Finset.sum_congr rfl fun j _ => ?_
  rw [show (3200 : ℕ) = 25 * 128 from rfl, sum_range_mul (fun q => f (25 * 128 * j + q)) 25 128, Finset.sum_comm]

/-- A row's entry with the row and the column as plain numbers, `0` outside the table. -/
def entryN (pred : STab.Idx → EReal) (cls : SRow.Idx → BitVec 32) (R Q : ℕ) : EReal :=
  if h : R < 8192 ∧ Q < 32000 then entry pred cls ⟨R, h.1⟩ ⟨Q, h.2⟩ else 0

theorem entryN_of_lt (pred : STab.Idx → EReal) (cls : SRow.Idx → BitVec 32) (R Q : ℕ) (hR : R < 8192) (hQ : Q < 32000) :
    entryN pred cls R Q = entry pred cls ⟨R, hR⟩ ⟨Q, hQ⟩ := dif_pos ⟨hR, hQ⟩

/-- So the 128 lane sums of a row add up to the row's sum of entries. -/
theorem sum_lanes_entry (pred : STab.Idx → EReal) (cls : SRow.Idx → BitVec 32) (R : Fin 8192) :
    ∑ l ∈ Finset.range 128, ∑ j ∈ Finset.range 10, ∑ k ∈ Finset.range 25,
        entryN pred cls R.val (3200 * j + (128 * k + l))
      = ∑ q : Fin 32000, entry pred cls R q := by
  rw [sum_lanes_eq (entryN pred cls R.val), Finset.sum_range]
  exact Finset.sum_congr rfl fun q _ => entryN_of_lt pred cls R.val q.val R.isLt q.isLt

end Cert.MaskedLogLoss

end
-- ==== Proof.KernelValue.lean ====
/-
  The kernel's result array is the masked row loss.

  The grid has 16 row blocks of 512 rows, each visited at 10 consecutive points, one per block of 3200 columns. Point
  `t` works on rows `512·(t / 10) + r` and columns `3200·(t % 10) + q`; there the masked block's entry is the
  specification's `entry` (the 32-bit test "local column = class − 3200·(t % 10)" is the test "class = global
  column", because the global column is below 2³²). By induction on the point, after point `t` the scratch holds at
  lane `l` of row `r` the sum of the row's entries at the columns `3200·j + 128·k + l`, `j ≤ t % 10`, `k < 25`. At
  a row block's last point the 128 lane sums are added up, which is the row's whole sum (every column is met once),
  negated and divided by 32000: the block written back is the specification's `loss` on those rows. The 16 blocks
  written back tile the [8192, 1] result array, and the reshape that follows reads it as the [8192] result.
-/
import proofs.«404897_j64183991272155_3_alg».proof.Proof.LaneValues
import proofs.«404897_j64183991272155_3_alg».proof.Proof.Regroup
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RowLoss

open Cert.KernelIdeal Cert.KernelIdeal.Gen Cert.KernelIdeal.Lanes Cert.MaskedLogLoss

variable (m : (ℓ : Loc nD τ sig) → Buf (Elt Ideal) ℓ) (ρ : Dev nD → PrngReg)

/-- The table and the class words, as launched. -/
abbrev tab (c : Dev nD) : Vec Ideal S8192x32000 .f32 := m ((c : Thread nD τ).loc main_arg0)
abbrev cls (c : Dev nD) : Vec Ideal S8192 .i32 := m ((c : Thread nD τ).loc main_arg1)

/-- The two input blocks of a point, at their literal shapes. -/
abbrev xblk (c : Dev nD) (t : Fin cfg0.N) : Vec Ideal S512x3200 .f32 := iblk m c 0 t
abbrev cblk (c : Dev nD) (t : Fin cfg0.N) : Vec Ideal S512x1 .i32 := iblk m c 1 t

/-- Where the windows' blocks sit, and which column block a point works on — decided once over the 160 points. -/
theorem idx_facts : ∀ t : Fin cfg0.N,
    win0_0.index t 0 = t.val / 10 ∧ win0_0.index t 1 = t.val % 10 ∧ win0_1.index t 0 = t.val / 10 ∧ win0_1.index t 1 = 0
      ∧ win0_2.index t 0 = t.val / 10 ∧ win0_2.index t 1 = 0 ∧ ((grid0.coords t) 1).val = t.val % 10 :=
  (by decide +kernel : ∀ t : Fin grid0.N,
    win0_0.index t 0 = t.val / 10 ∧ win0_0.index t 1 = t.val % 10 ∧ win0_1.index t 0 = t.val / 10 ∧ win0_1.index t 1 = 0
      ∧ win0_2.index t 0 = t.val / 10 ∧ win0_2.index t 1 = 0 ∧ ((grid0.coords t) 1).val = t.val % 10)

theorem lt_160 (t : Fin cfg0.N) : t.val < 160 := lt_of_lt_of_eq t.isLt N_0

/-- The class words reach the region as a [8192, 1] column: the reshape before it. -/
theorem V_main_v0 (c : Dev nD) :
    (V m c main_v0 : S8192x1.Idx → BitVec 32) = shapeCast S8192x1 (cls m c) shapeCasts_S8192_S8192x1 := by
  show StableHlo.after hostOps0 (fun b => m (c, b)) (Proc.devRef .tc main_v0) = _
  after_results
  rfl

/-- A point's table block: row `r`, column `q` of it is row `512·(t / 10) + r`, column `3200·(t % 10) + q` of the table. -/
theorem xblk_apply (c : Dev nD) (t : Fin cfg0.N) (r : Fin 512) (q : Fin 3200) :
    xblk m c t (ix2 r q) = tab m c (ix2 ⟨512 * (t.val / 10) + r.val, by have := lt_160 t; have := r.isLt; omega⟩
      ⟨3200 * (t.val % 10) + q.val, by have := q.isLt; omega⟩) := by
  have hi := idx_facts t
  unfold xblk iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = _; rw [hi.1]; show _ = 512 * (t.val / 10) + r.val; omega
  | ⟨1, _⟩ => show win0_0.index t 1 * 3200 + 1 * q.val = _; rw [hi.2.1]; show _ = 3200 * (t.val % 10) + q.val; omega

/-- A point's class block: row `r` of it is the class word of row `512·(t / 10) + r`. -/
theorem cblk_apply (c : Dev nD) (t : Fin cfg0.N) (r : Fin 512) :
    cblk m c t (ix2 r 0) = cls m c (ix1 ⟨512 * (t.val / 10) + r.val, by have := lt_160 t; have := r.isLt; omega⟩) := by
  have hi := idx_facts t
  unfold cblk iblk
  rw [View.read_apply]
  show V m c main_v0 _ = _
  rw [V_main_v0]
  refine shapeCast_apply _ _ _ _ ?_
  rw [Shape.rowMajor_val_one, Shape.rowMajor_val_two]
  show 512 * (t.val / 10) + r.val = (win0_1.index t 0 * 512 + 1 * r.val) * 1 + (win0_1.index t 1 * 1 + 1 * 0)
  rw [hi.2.2.1, hi.2.2.2.1]; omega

/-- The 32-bit test of the body against the plain one: for a column block `j < 10` and a local column `q < 3200`,
    "`q` is the class word minus `3200·j`" says the class word is the global column `3200·j + q`. -/
theorem word_eq_iff (w : BitVec 32) (j q : ℕ) (hj : j < 10) (hq : q < 3200) :
    BitVec.ofNat 32 q = w - BitVec.ofNat 32 j * 3200#32 ↔ w.toNat = 3200 * j + q := by
  constructor
  · intro h
    have h' : w = BitVec.ofNat 32 q + BitVec.ofNat 32 j * 3200#32 := by rw [h]; exact (BitVec.sub_add_cancel _ _).symm
    rw [h']
    simp only [BitVec.toNat_add, BitVec.toNat_mul, BitVec.toNat_ofNat]
    omega
  · intro h
    apply BitVec.eq_of_toNat_eq
    simp only [BitVec.toNat_sub, BitVec.toNat_mul, BitVec.toNat_ofNat]
    omega

/-- The masked block of point `t` at row `r`, column `q` is the specification's entry at the global row and column. -/
theorem masked_block (c : Dev nD) (t : Fin cfg0.N) (r : Fin 512) (q : ℕ) (hq : q < 3200) :
    colN (k0_pay3 (F := Ideal) (grid0.coords t) (cblk m c t) (xblk m c t)) r q
      = entryN (tab m c) (cls m c) (512 * (t.val / 10) + r.val) (3200 * (t.val % 10) + q) := by
  have hN := lt_160 t
  have hr := r.isLt
  have hi := idx_facts t
  rw [colN_of_lt _ _ _ hq, entryN_of_lt _ _ _ _ (by omega) (by omega), masked_apply, xblk_apply, cblk_apply, hi.2.2.2.2.2.2]
  unfold entry
  exact if_congr (word_eq_iff _ _ _ (by omega) hq) rfl rfl

/-- What the lanes gain at point `t`: lane `l` of row `r` gains the entries of its 25 columns of the point's
    column block. -/
theorem point_gain (c : Dev nD) (t : Fin cfg0.N) (acc : Vec Ideal S512x128 .f32) (r : Fin 512) (l : Fin 128) :
    lanes (F := Ideal) (grid0.coords t) (cblk m c t) (xblk m c t) acc (ix2 r l)
      = acc (ix2 r l) + ∑ k ∈ Finset.range 25,
          entryN (tab m c) (cls m c) (512 * (t.val / 10) + r.val) (3200 * (t.val % 10) + (128 * k + l.val)) := by
  rw [lanes_apply]
  refine congrArg (acc (ix2 r l) + ·) (Finset.sum_congr rfl fun k hk => ?_)
  have hk' : k < 25 := Finset.mem_range.mp hk
  have hl := l.isLt
  exact masked_block m c t r (128 * k + l.val) (by omega)

/-- The scratch after a point, case by case, as `lanes` of what the point found. -/
theorem scratch_first (c : Dev nD) (t : Fin cfg0.N) (h0 : t.val % 10 = 0) (h1 : ¬t.val % 10 = 9) :
    (outsAt0 m c t.val t.isLt).2 = lanes (grid0.coords t) (cblk m c t) (xblk m c t) (k0_pay2 (F := Ideal)) := by
  rw [outsAt0_A m c t h0 h1]
  dsimp only
  exact scratch_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

theorem scratch_middle (c : Dev nD) (t : Fin cfg0.N) (h0 : ¬t.val % 10 = 0) (h1 : ¬t.val % 10 = 9) :
    (outsAt0 m c t.val t.isLt).2 = lanes (grid0.coords t) (cblk m c t) (xblk m c t)
      (outsAt0 m c (t.val - 1) (Nat.lt_of_le_of_lt (Nat.sub_le _ _) t.isLt)).2 := by
  rw [outsAt0_B m c t h0 h1]
  dsimp only
  exact scratch_B (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

theorem scratch_last (c : Dev nD) (t : Fin cfg0.N) (h0 : ¬t.val % 10 = 0) (h1 : t.val % 10 = 9) :
    (outsAt0 m c t.val t.isLt).2 = lanes (grid0.coords t) (cblk m c t) (xblk m c t)
      (outsAt0 m c (t.val - 1) (Nat.lt_of_le_of_lt (Nat.sub_le _ _) t.isLt)).2 := by
  rw [outsAt0_C m c t h0 h1]
  dsimp only
  exact scratch_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- The output block at a row block's last point: the closing arithmetic of the scratch the point leaves. -/
theorem out_last (c : Dev nD) (t : Fin cfg0.N) (h0 : ¬t.val % 10 = 0) (h1 : t.val % 10 = 9) :
    (outsAt0 m c t.val t.isLt).1 = k0_pay1 (outsAt0 m c t.val t.isLt).2 := by
  rw [scratch_last m c t h0 h1, outsAt0_C m c t h0 h1]
  dsimp only
  exact out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- Lane `l` of row `r` after point `n`: the row's entries at the columns `3200·j + 128·k + l` of the column
    blocks `j ≤ n % 10` met so far. -/
def laneSum (c : Dev nD) (n : ℕ) (r : Fin 512) (l : ℕ) : EReal :=
  ∑ j ∈ Finset.range (n % 10 + 1), ∑ k ∈ Finset.range 25,
    entryN (tab m c) (cls m c) (512 * (n / 10) + r.val) (3200 * j + (128 * k + l))

/-- THE INVARIANT, by induction on the point. -/
theorem scratch_eq (c : Dev nD) : ∀ (n : ℕ) (hn : n < cfg0.N) (r : Fin 512) (l : Fin 128),
    (outsAt0 m c n hn).2 (ix2 r l) = laneSum m c n r l.val
  | 0, hn, r, l => by
    have e := scratch_first m c ⟨0, hn⟩ rfl (by show ¬(0 : ℕ) % 10 = 9; omega)
    rw [e, point_gain, Lanes.zero_apply, zero_add]
    unfold laneSum
    rw [show (0 : ℕ) % 10 + 1 = 1 from rfl, Finset.sum_range_one]
    rfl
  | n + 1, hn, r, l => by
    have hN : n + 1 < 160 := lt_of_lt_of_eq hn N_0
    by_cases h0 : (n + 1) % 10 = 0
    · have e := scratch_first m c ⟨n + 1, hn⟩ h0 (by show ¬(n + 1) % 10 = 9; omega)
      rw [e, point_gain, Lanes.zero_apply, zero_add]
      unfold laneSum
      show _ = ∑ j ∈ Finset.range ((n + 1) % 10 + 1), _
      rw [h0, Finset.sum_range_one]
    · have ih := scratch_eq c n (Nat.lt_of_succ_lt hn) r l
      have e : (outsAt0 m c (n + 1) hn).2 = lanes (grid0.coords ⟨n + 1, hn⟩) (cblk m c ⟨n + 1, hn⟩) (xblk m c ⟨n + 1, hn⟩)
          (outsAt0 m c n (Nat.lt_of_succ_lt hn)).2 := by
        by_cases h1 : (n + 1) % 10 = 9
        · exact scratch_last m c ⟨n + 1, hn⟩ h0 h1
        · exact scratch_middle m c ⟨n + 1, hn⟩ h0 h1
      rw [e, point_gain, ih]
      unfold laneSum
      show _ = ∑ j ∈ Finset.range ((n + 1) % 10 + 1), _
      have hd : n / 10 = (n + 1) / 10 := by omega
      have hm : n % 10 + 1 = (n + 1) % 10 := by omega
      rw [hd, hm]
      exact (Finset.sum_range_succ _ _).symm

/-- The block written back at a row block's last point: the loss of its 512 rows. -/
theorem out_value (c : Dev nD) (t : Fin cfg0.N) (h1 : t.val % 10 = 9) (r : Fin 512) :
    (outsAt0 m c t.val t.isLt).1 (ix2 r 0)
      = loss (tab m c) (cls m c) (ix1 ⟨512 * (t.val / 10) + r.val, by have := lt_160 t; have := r.isLt; omega⟩) := by
  have hN := lt_160 t
  rw [out_last m c t (by omega) h1, closing_apply]
  unfold loss
  refine congrArg (fun s => Ideal.div (-s) (Ideal.ofBits .f32 0x46FA0000#32)) ?_
  rw [Finset.sum_congr rfl (fun l _ => scratch_eq m c t.val t.isLt r l),
    ← Finset.sum_range (fun l => laneSum m c t.val r l)]
  unfold laneSum
  rw [h1]
  exact sum_lanes_entry (tab m c) (cls m c) ⟨512 * (t.val / 10) + r.val, by have := r.isLt; omega⟩

/-- What the region's result array ends holding: each row's loss, as a [8192, 1] column. -/
abbrev lossCol (c : Dev nD) : Buf (Elt Ideal) ((c : Thread nD τ).loc main_v1) :=
  fun i => loss (tab m c) (cls m c) (ix1 (i 0))

/-- Every write-back writes the loss column's block. -/
theorem flushed_eq (c : Dev nD) (t : Fin cfg0.N) (hf : (cfg0.win 2).flush t = true) :
    (dats m 0 c).flushed 2 t = ((cfg0.win 2).blk t).view.read (Elt Ideal) (lossCol m c) := by
  have h9 : t.val % 10 = 9 := (flush0_2 t).mp hf
  have hi := idx_facts t
  have hN := lt_160 t
  show (cfg0.win 2).cut (grid0.coords t) ((dats m 0 c).after 2 t) = _
  rw [after0_2]
  funext y
  obtain ⟨r, z, rfl⟩ : ∃ (r : Fin 512) (z : Fin 1), y = ix2 r z := ⟨y 0, y 1, eq_ix2 y⟩
  obtain rfl : z = 0 := Subsingleton.elim _ _
  rw [View.read_apply]
  show (outsAt0 m c t.val t.isLt).1 (ix2 r 0) = lossCol m c _
  rw [out_value m c t h9 r]
  refine congrArg (loss (tab m c) (cls m c)) (funext fun a => ?_)
  match a with
  | ⟨0, _⟩ =>
    apply Fin.ext
    show 512 * (t.val / 10) + r.val = win0_2.index t 0 * 512 + 1 * r.val
    rw [hi.2.2.2.2.1]; omega

/-- The sizes of the result's blocks — decided once over the 160 points. -/
theorem xsize_facts : ∀ t : Fin cfg0.N, win0_2.xsize (grid0.coords t) 0 = 512 ∧ win0_2.xsize (grid0.coords t) 1 = 1 :=
  (by decide +kernel : ∀ t : Fin grid0.N, win0_2.xsize (grid0.coords t) 0 = 512 ∧ win0_2.xsize (grid0.coords t) 1 = 1)

/-- The 16 blocks written back tile the result array (row `R` is in the block of the last point of row block
    `R / 512`), so it ends holding the loss column. -/
theorem final (c : Dev nD) : (dats m 0 c).arrAt 2 cfg0.N = lossCol m c :=
  (dats m 0 c).arrAt_eq_of_cover 2 (lossCol m c) (flushed_eq m c) fun i => by
    have h0 : (i 0 : ℕ) < 8192 := (i 0).isLt
    have h1 : (i 1 : ℕ) < 1 := (i 1).isLt
    have hN : cfg0.N = 160 := N_0
    have ht : 10 * ((i 0 : ℕ) / 512) + 9 < cfg0.N := by rw [hN]; omega
    have hi := idx_facts ⟨_, ht⟩
    have hx := xsize_facts ⟨_, ht⟩
    refine ⟨⟨_, ht⟩, (flush0_2 ⟨_, ht⟩).mpr (by show (10 * ((i 0 : ℕ) / 512) + 9) % 10 = 9; omega), ?_⟩
    show i ∈ ((View.whole main_v1).slice (win0_2.rect ⟨_, ht⟩)).set
    rw [View.set_slice_whole, Rect.mem_set_unit]
    intro a
    match a with
    | ⟨0, _⟩ =>
      show win0_2.index ⟨_, ht⟩ 0 * win0_2.size 0 ≤ (i 0 : ℕ)
        ∧ (i 0 : ℕ) < win0_2.index ⟨_, ht⟩ 0 * win0_2.size 0 + win0_2.xsize (grid0.coords ⟨_, ht⟩) 0
      rw [hi.2.2.2.2.1, hx.1]
      show (10 * ((i 0 : ℕ) / 512) + 9) / 10 * 512 ≤ (i 0 : ℕ) ∧ (i 0 : ℕ) < (10 * ((i 0 : ℕ) / 512) + 9) / 10 * 512 + 512
      omega
    | ⟨1, _⟩ =>
      show win0_2.index ⟨_, ht⟩ 1 * win0_2.size 1 ≤ (i 1 : ℕ)
        ∧ (i 1 : ℕ) < win0_2.index ⟨_, ht⟩ 1 * win0_2.size 1 + win0_2.xsize (grid0.coords ⟨_, ht⟩) 1
      rw [hi.2.2.2.2.2.1, hx.2]
      omega

/-- The reshape after the region reads the loss column as the [8192] result. -/
theorem result_eq (c : Dev nD) :
    Pipeline.afterTail₀ cfgs (dats m) 0 (V0 m) [hostOps1] c main_v2 = loss (tab m c) (cls m c) := by
  unfold Pipeline.afterTail₀
  show StableHlo.after hostOps1 _ (Proc.devRef .tc main_v2) = _
  after_results
  refine funext fun (i : S8192.Idx) => ?_
  obtain ⟨R, rfl⟩ : ∃ R : Fin 8192, i = ix1 R := ⟨i 0, eq_ix1 i⟩
  have hw : Pipeline.withArrays (cfgs 0).spec c (V0 m c) (fun w => (dats m 0 c).arrAt w (cfgs 0).N) (Proc.tc.devRef main_v1)
      = lossCol m c := (Pipeline.withArrays_arr spec0 launch0.win.arr_inj c _ _ 2).trans (final m c)
  show shapeCast S8192 (Pipeline.withArrays (cfgs 0).spec c (V0 m c) (fun w => (dats m 0 c).arrAt w (cfgs 0).N)
    (Proc.tc.devRef main_v1)) shapeCasts_S8192x1_S8192 (ix1 R) = _
  rw [hw]
  have hk : (S8192x1.rowMajor (ix2 R (0 : Fin 1))).val = (S8192.rowMajor (ix1 R)).val := by
    rw [Shape.rowMajor_val_one, Shape.rowMajor_val_two]; show R.val * 1 + 0 = R.val; omega
  exact shapeCast_apply (s := S8192x1) (t := S8192) (lossCol m c) shapeCasts_S8192x1_S8192 (ix1 R) (ix2 R 0) hk

/-- THE RUN, READ: the result at the loss of every row, the arguments unchanged. -/
theorem run : θ_run defs (onTc (τ := τ) (main (F := Ideal))) ⟨m, fun _ => 0, ρ⟩ fun r => ∀ c : Dev nD,
      r.2.mem ((c.tc : Thread nD τ).loc main_v2) = loss (tab m c) (cls m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.RowLoss
end
-- ==== Proof.RefValue.lean ====
/-
  The reference program's value is the masked row loss.

  The reference takes the logarithm of every entry of the table, overwrites with zero the entry of each row
  at the row's class (a "set" scatter over the index pairs (row, class of the row)), sums each row, negates
  the sum and divides by 32000. Read at the extended reals this is the specification's `loss`, for class
  words in range.

  The proof has four parts. (1) A left fold of overwriting steps, read at one index, is the value written
  by a step that hits the index when every step hitting it writes the same value, and is the start value
  when no step hits it; a "set" scatter is such a fold over its update indices. (2) An update lands at an
  index exactly when its start plus its window coordinate is the index's coordinate on every axis; for
  these dimension numbers the window coordinate is zero and the start of row r's update is the pair
  read at row r of the index table. (3) The index table's first column is the row number (a number below
  8192 is not negative, so the wrap leaves it) and its second column is the class word (a word below 32000
  is not negative either), so row r's update lands at (r, class of r) and nowhere else. (4) Hence the
  scattered table is zero at each row's class and the logarithm elsewhere, which is the specification's
  `entry`; the zero initial value of the sum drops out.
-/
import proofs.«404897_j64183991272155_3_alg».proof.Proof.Spec
import proofs.«404897_j64183991272155_3_alg».proof.Proof.Gen.ReferenceIdeal.Read
import Idealize.ShloMosaic.PureOps.Dims
import Idealize.ShloMosaic.PureOps.ShapeOps
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Pipeline.Value
import Mathlib.Logic.Equiv.Defs
import Mathlib.Algebra.BigOperators.Group.Finset.Basic

noncomputable section

namespace Cert.MaskedLogLoss.Ref

open Idealize.ShloMosaic Idealize.ShloMosaic.ValueIdx Cert.ReferenceIdeal Cert.ReferenceIdeal.Gen Cert.ReferenceIdeal.Read

/-! ## A fold of overwriting steps, read at one index -/

/-- A left fold of overwriting steps, read at one index: if some step of the list hits the index, and every
    step that hits it writes the same value, the fold has that value there. -/
theorem foldl_hit {ι κ α : Type} (g : ι → Option κ) (step : (κ → α) → ι → κ → α) (i' : κ) (v : α)
    (hhit : ∀ r n, g n = some i' → step r n i' = v)
    (hmiss : ∀ r n, g n ≠ some i' → step r n i' = r i') :
    ∀ (l : List ι) (x : κ → α), (∃ n ∈ l, g n = some i') → l.foldl step x i' = v := by
  intro l
  induction l with
  | nil => intro x h; obtain ⟨n, hn, _⟩ := h; cases hn
  | cons n l ih =>
    intro x h
    rw [List.foldl_cons]
    by_cases hl : ∃ n' ∈ l, g n' = some i'
    · exact ih _ hl
    · have hn : g n = some i' := by
        obtain ⟨m, hm, hgm⟩ := h
        rcases List.mem_cons.1 hm with rfl | hm'
        · exact hgm
        · exact absurd ⟨m, hm', hgm⟩ hl
      have key : ∀ (l' : List ι) (y : κ → α), (∀ n' ∈ l', g n' ≠ some i') → l'.foldl step y i' = y i' := by
        intro l'
        induction l' with
        | nil => intro y _; rfl
        | cons m l' ih' =>
          intro y hy
          rw [List.foldl_cons, ih' _ (fun n' hn' => hy n' (List.mem_cons_of_mem _ hn'))]
          exact hmiss y m (hy m List.mem_cons_self)
      rw [key l _ (fun n' hn' hg => hl ⟨n', hn', hg⟩)]
      exact hhit x n hn

/-- The same fold at an index no step of the list hits: the start value. -/
theorem foldl_miss {ι κ α : Type} (g : ι → Option κ) (step : (κ → α) → ι → κ → α) (i' : κ)
    (hmiss : ∀ r n, g n ≠ some i' → step r n i' = r i') :
    ∀ (l : List ι) (x : κ → α), (∀ n ∈ l, g n ≠ some i') → l.foldl step x i' = x i' := by
  intro l
  induction l with
  | nil => intro y _; rfl
  | cons m l ih =>
    intro y hy
    rw [List.foldl_cons, ih _ (fun n' hn' => hy n' (List.mem_cons_of_mem _ hn'))]
    exact hmiss y m (hy m List.mem_cons_self)

/-- A "set" scatter read at an index some update lands on, when all updates landing there carry one value. -/
theorem scatter_set_hit {s si u : Shape} {α : Type} {w : Nat} (d : ScatterDims s si u) (x : s.Idx → α)
    (idx : IVec si w) (upd : u.Idx → α) (i' : s.Idx) (v : α)
    (hv : ∀ j, d.resultIdx? j idx = some i' → upd j = v) (j₀ : u.Idx) (h₀ : d.resultIdx? j₀ idx = some i') :
    Host.scatter d (fun _ b => b) x idx upd i' = v := by
  unfold Host.scatter
  refine foldl_hit (fun n => d.resultIdx? (u.rowMajor.symm n) idx) _ i' v ?_ ?_ _ _
    ⟨u.rowMajor j₀, List.mem_finRange _, ?_⟩
  · intro r n hn
    rw [← hv _ hn]
    beta_reduce at hn ⊢
    revert hn
    generalize d.resultIdx? (u.rowMajor.symm n) idx = o
    intro hn
    subst hn
    exact if_pos rfl
  · intro r n hn
    beta_reduce at hn ⊢
    revert hn
    generalize d.resultIdx? (u.rowMajor.symm n) idx = o
    intro hn
    cases o with
    | none => rfl
    | some i => exact if_neg (fun e => hn (by rw [e]))
  · show d.resultIdx? (u.rowMajor.symm (u.rowMajor j₀)) idx = _
    rw [Equiv.symm_apply_apply]; exact h₀

/-- A "set" scatter read at an index no update lands on: the operand. -/
theorem scatter_set_miss {s si u : Shape} {α : Type} {w : Nat} (d : ScatterDims s si u) (x : s.Idx → α)
    (idx : IVec si w) (upd : u.Idx → α) (i' : s.Idx)
    (h : ∀ j, d.resultIdx? j idx ≠ some i') :
    Host.scatter d (fun _ b => b) x idx upd i' = x i' := by
  unfold Host.scatter
  refine foldl_miss (fun n => d.resultIdx? (u.rowMajor.symm n) idx) _ i' ?_ _ _ (fun n _ => h _)
  intro r n hn
  beta_reduce at hn ⊢
  revert hn
  generalize d.resultIdx? (u.rowMajor.symm n) idx = o
  intro hn
  cases o with
  | none => rfl
  | some i => exact if_neg (fun e => hn (by rw [e]))

/-! ## Where an update lands -/

/-- An update lands at the index `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro e a
      have e' := Option.some.inj e
      subst e'
      have := (h a).1
      simp only []
      omega
    · intro e
      congr 1; funext a; apply Fin.ext
      have := e a
      simp only []
      omega
  · constructor
    · intro e; cases e
    · intro e; exfalso; apply h; intro a
      have := e a; have := (i a).isLt; omega

/-- The scatter's dimension numbers. -/
abbrev D : ScatterDims S8192x32000 S8192x2 S8192 := scatter_S8192x32000_S8192x2_S8192_n_01_01_1

/-- No operand axis is a window axis: both are inserted. -/
theorem window_zero (j : S8192.Idx) (a : Fin 2) : D.window j a = 0 := by
  unfold ScatterDims.window
  rw [dif_neg]
  revert a; decide

/-- Row `r`'s update reads component `c` of its start index at `(r, c)` of the index table. -/
theorem siIdx_eq (r : Fin 8192) (c : Fin 2) :
    D.siIdx (ix1 r) c = ix2 r c := by
  funext b
  match b with
  | ⟨0, _⟩ => exact Fin.ext rfl
  | ⟨1, _⟩ => exact Fin.ext rfl

/-- The start of row `r`'s update on the row axis: the first entry of the table's row `r`, read signed. -/
theorem start_zero (r : Fin 8192) (idx : IVec S8192x2 32) :
    D.start (ix1 r) idx 0 = (idx (ix2 r 0)).toInt := by
  unfold ScatterDims.start
  rw [dif_pos (by decide)]
  exact congrArg (fun k => (idx k).toInt) (siIdx_eq r 0)

/-- The start of row `r`'s update on the column axis: the second entry of the table's row `r`, read signed. -/
theorem start_one (r : Fin 8192) (idx : IVec S8192x2 32) :
    D.start (ix1 r) idx 1 = (idx (ix2 r 1)).toInt := by
  unfold ScatterDims.start
  rw [dif_pos (by decide)]
  exact congrArg (fun k => (idx k).toInt) (siIdx_eq r 1)

/-! ## The index table's two columns -/

/-- The index table's first column is the row number. -/
theorem table_col0 (cls : (⟨S8192, .i32⟩ : BufTy).Contents (Elt Ideal)) (r : Fin 8192) :
    val_main_v14 (F := Ideal) cls (ix2 r 0) = BitVec.ofNat 32 r.val := by
  unfold val_main_v14
  rw [concatenate_pair_apply_left (t := S8192x2) (s₁ := S8192x1) (s₂ := S8192x1) (1 : Fin 2) _ _ concatenates_S8192x1_S8192x1_S8192x2_d1 (ix2 r (0 : Fin 2)) rfl
    (ix2 r (0 : Fin 1)) (fun b => by match b with | ⟨0, _⟩ => rfl | ⟨1, _⟩ => rfl)]
  rw [val_main_v12_apply, val_main_v6_apply, val_main_v3_apply, val_main_v1_apply, val_main_v2_apply,
    val_main_c_apply]
  show Scalar.select (IntOp.cmpi .slt (BitVec.ofNat 32 r.val) 0#32) _ (BitVec.ofNat 32 r.val) = _
  have hr : (BitVec.ofNat 32 r.val).toNat < 2 ^ 31 := by
    rw [BitVec.toNat_ofNat]; have := r.isLt; omega
  have hc : ¬ IntOp.cmpi .slt (BitVec.ofNat 32 r.val) 0#32 = 1#1 := by
    rw [StableHlo.Predicate.slt_iff_toNat hr (by decide)]
    exact Nat.not_lt_zero _
  unfold Scalar.select
  exact if_neg hc

/-- The index table's second column is the class word, when that is in range. -/
theorem table_col1 (cls : (⟨S8192, .i32⟩ : BufTy).Contents (Elt Ideal)) (r : Fin 8192)
    (h : (cls (ix1 r)).toNat < 32000) :
    val_main_v14 (F := Ideal) cls (ix2 r 1) = cls (ix1 r) := by
  unfold val_main_v14
  rw [concatenate_pair_apply_right (t := S8192x2) (s₁ := S8192x1) (s₂ := S8192x1) (1 : Fin 2) _ _ concatenates_S8192x1_S8192x1_S8192x2_d1 (ix2 r (1 : Fin 2)) rfl rfl
    (ix2 r (0 : Fin 1)) (fun b hb => by
      match b with
      | ⟨0, _⟩ => rfl
      | ⟨1, _⟩ => exact absurd rfl hb) rfl]
  rw [val_main_v13_apply, val_main_v11_apply, val_main_v8_apply, val_main_v7_apply, val_main_c_1_apply]
  have hi : idx_main_v13 (ix2 r (0 : Fin 1)) = ix1 r := by
    funext a; match a with | ⟨0, _⟩ => rfl
  rw [hi]
  have hc : ¬ IntOp.cmpi .slt (cls (ix1 r)) 0#32 = 1#1 := by
    rw [StableHlo.Predicate.slt_iff_toNat (by omega) (by decide)]
    exact Nat.not_lt_zero _
  unfold Scalar.select
  exact if_neg hc

/-! ## The scattered table and the row loss -/

/-- Every update is the extended real zero. -/
theorem upd_zero (k : S8192.Idx) : val_main_v15 (F := Ideal) k = (0 : EReal) := by
  rw [val_main_v15_apply, val_main_cst_apply]
  exact Ideal.ofBits_zero_f32

/-- Row `r'`'s update lands at `(r, q)` exactly when `r'` is `r` and `q` is that row's class. -/
theorem lands_iff (cls : (⟨S8192, .i32⟩ : BufTy).Contents (Elt Ideal))
    (hcls : ∀ r : Fin 8192, (cls (ix1 r)).toNat < 32000) (r' r : Fin 8192) (q : Fin 32000) :
    D.resultIdx? (ix1 r') (val_main_v14 (F := Ideal) cls) = some (ix2 r q) ↔
      r'.val = r.val ∧ (cls (ix1 r')).toNat = q.val := by
  rw [resultIdx?_eq_some_iff]
  have h0 : (BitVec.ofNat 32 r'.val).toInt = (r'.val : Int) :=
    StableHlo.Predicate.toInt_ofNat_small _ (by have := r'.isLt; omega)
  have h1 : (cls (ix1 r')).toInt = ((cls (ix1 r')).toNat : Int) :=
    StableHlo.Predicate.toInt_eq_toNat_of_lt (by have := hcls r'; omega)
  have s0 : D.start (ix1 r') (val_main_v14 (F := Ideal) cls) 0 + (D.window (ix1 r') 0 : Int) = (r'.val : Int) := by
    rw [start_zero, window_zero, table_col0, h0]; simp
  have s1 : D.start (ix1 r') (val_main_v14 (F := Ideal) cls) 1 + (D.window (ix1 r') 1 : Int)
      = ((cls (ix1 r')).toNat : Int) := by
    rw [start_one, window_zero, table_col1 cls r' (hcls r'), h1]; simp
  constructor
  · intro h
    have e0 := h 0
    have e1 := h 1
    rw [s0] at e0
    rw [s1] at e1
    exact ⟨by exact_mod_cast e0, by exact_mod_cast e1⟩
  · rintro ⟨e0, e1⟩ a
    match a with
    | ⟨0, _⟩ =>
      show D.start (ix1 r') _ 0 + (D.window (ix1 r') 0 : Int) = ((r.val : Nat) : Int)
      rw [s0, e0]
    | ⟨1, _⟩ =>
      show D.start (ix1 r') _ 1 + (D.window (ix1 r') 1 : Int) = ((q.val : Nat) : Int)
      rw [s1, e1]

/-- The scattered table: zero at each row's class, the logarithm elsewhere. -/
theorem scattered_apply (pred : (⟨S8192x32000, .f32⟩ : BufTy).Contents (Elt Ideal))
    (cls : (⟨S8192, .i32⟩ : BufTy).Contents (Elt Ideal))
    (hcls : ∀ r : Fin 8192, (cls (ix1 r)).toNat < 32000) (r : Fin 8192) (q : Fin 32000) :
    val_main_v16 (F := Ideal) pred cls (ix2 r q)
      = if (cls (ix1 r)).toNat = q.val then (0 : EReal) else Ideal.log (pred (ix2 r q)) := by
  unfold val_main_v16
  by_cases hq : (cls (ix1 r)).toNat = q.val
  · rw [if_pos hq]
    exact scatter_set_hit D _ _ _ (ix2 r q) 0 (fun j _ => upd_zero j) (ix1 r)
      ((lands_iff cls hcls r r q).2 ⟨rfl, hq⟩)
  · rw [if_neg hq, scatter_set_miss D _ _ _ (ix2 r q) (fun j hj => ?_)]
    · rw [val_main_v0_apply]; rfl
    · obtain ⟨r', rfl⟩ : ∃ r' : Fin 8192, j = ix1 r' := ⟨j 0, eq_ix1 j⟩
      rw [lands_iff cls hcls] at hj
      apply hq
      have : r' = r := Fin.ext hj.1
      rw [← this]; exact hj.2

/-- The reference program's result, read at the extended reals, is the masked row loss of its arguments,
    for class words in range. -/
theorem reference_is_loss
    (pred : (⟨Cert.ReferenceIdeal.S8192x32000, .f32⟩ : BufTy).Contents (Elt Ideal))
    (cls : (⟨Cert.ReferenceIdeal.S8192, .i32⟩ : BufTy).Contents (Elt Ideal))
    (hcls : ∀ r : Fin 8192, (cls (Idealize.ShloMosaic.ValueIdx.ix1 r)).toNat < 32000) :
    Cert.ReferenceIdeal.Read.val_main_v20 (F := Ideal) pred cls = Cert.MaskedLogLoss.loss pred cls := by
  funext i
  obtain ⟨r, rfl⟩ : ∃ r : Fin 8192, i = ix1 r := ⟨i 0, eq_ix1 i⟩
  rw [val_main_v20_apply, val_main_v18_apply, val_main_v17_apply, val_main_v19_apply, val_main_cst_4_apply,
    val_main_cst_3_apply]
  show Ideal.div (-(Ideal.ofBits .f32 0x00000000#32 + ∑ k : Fin 32000, val_main_v16 (F := Ideal) pred cls (idx_main_v17 (ix1 r) k)))
      (Ideal.ofBits .f32 0x46FA0000#32)
    = Ideal.div (-(∑ q : Fin 32000, entry pred cls r q)) (Ideal.ofBits .f32 0x46FA0000#32)
  rw [Ideal.ofBits_zero_f32, zero_add]
  refine congrArg (fun t : EReal => Ideal.div (-t) (Ideal.ofBits .f32 0x46FA0000#32)) ?_
  refine Finset.sum_congr rfl fun k _ => ?_
  have hk : idx_main_v17 (ix1 r) k = ix2 r k := by
    funext a; match a with | ⟨0, _⟩ => rfl | ⟨1, _⟩ => rfl
  rw [hk, scattered_apply pred cls hcls]
  rfl

end Cert.MaskedLogLoss.Ref

end
-- ==== Proof.PreRange.lean ====
/-
  The precondition read back at the class words. The printed precondition is one bit: the conjunction of
  "every table entry is finite" and "every class word w has 0 ≤ w < 32000 as a signed 32-bit number", each a
  reduction by `and` of a vector of bits. When that bit is 1, both reductions are 1, so every bit of the second vector
  is 1; the bit at row r is the conjunction of the two signed comparisons of the word at row r against the constants
  0 and 32000. A signed word that is at least 0 has its sign bit clear, so its signed and unsigned readings agree, and
  the signed bound below 32000 is the unsigned bound.
-/
import proofs.«404897_j64183991272155_3_alg».proof.Pre_finite_inputs
import proofs.«404897_j64183991272155_3_alg».proof.Proof.Gen.Pre_finite_inputs
import Idealize.ShloMosaic.Lib.ValueIdx
import Idealize.ShloMosaic.Lib.ReduceAll

namespace Cert.MaskedLogLoss.Pre

open Idealize.ShloMosaic

/-- A 32-bit word whose signed reading lies in [0, 32000) has its unsigned reading below 32000: the signed reading
    of a word is its unsigned reading when that is below 2³¹ and 2³² less otherwise, and the second case is negative. -/
theorem toNat_lt_of_signed_range (w : BitVec 32) (hlo : (0#32 : BitVec 32).toInt ≤ w.toInt)
    (hhi : w.toInt < (32000#32 : BitVec 32).toInt) : w.toNat < 32000 := by
  have e0 : (0#32 : BitVec 32).toInt = 0 := by decide
  have e1 : (32000#32 : BitVec 32).toInt = 32000 := by decide
  rw [e0] at hlo
  rw [e1] at hhi
  have hw : w.toNat < 2 ^ 32 := w.isLt
  rw [BitVec.toInt_eq_toNat_cond] at hlo hhi
  split at hlo <;> omega

/-- From the precondition's bit being 1, every class word is below 32000 as an unsigned number. -/
theorem cls_lt_of_pre {F : FTy → Type} [FloatOps F]
    (a0 : FVec F Cert.Pre_finite_inputs.S8192x32000 .f32) (a1 : IVec Cert.Pre_finite_inputs.S8192 32)
    (h : Cert.Pre_finite_inputs.fn (F := F) a0 a1 = fun _ => 1#1) :
    ∀ r : Fin 8192, (a1 (Idealize.ShloMosaic.ValueIdx.ix1 r)).toNat < 32000 := by
  intro r
  -- the scalar shape has one index: two indices are functions out of an empty set of axes
  haveI : Subsingleton Cert.Pre_finite_inputs.S_.Idx := ⟨fun a b => funext fun d => d.elim0⟩
  -- the one bit of the result, read at the scalar index
  have h0 := congrFun h ValueIdx.ix0
  unfold Cert.Pre_finite_inputs.fn at h0
  -- the outer conjunction: the second conjunct is the reduction over the class words
  obtain ⟨_, h9⟩ := IntOp.andi_eq_one.1 h0
  -- a reduction by `and` that is 1 met a 1 at every row, in particular at row r
  have h8 := Host.reduce_andi_all _ _ _ _ _ h9 (ValueIdx.ix1 r)
  -- the bit at row r is the conjunction of the two comparisons of the word there
  obtain ⟨hge, hlt⟩ := IntOp.andi_eq_one.1 h8
  -- the comparisons are of signed readings; the constants are broadcast scalars
  have hge' := IntOp.cmpi_sge.1 hge
  have hlt' := IntOp.cmpi_slt.1 hlt
  exact toNat_lt_of_signed_range _ hge' hlt'

end Cert.MaskedLogLoss.Pre
-- ==== Proof.lean ====
/-
  The masked log loss: for a table `pred` : f32[8192, 32000] and a class word per row, the kernel and the reference
  both compute, row by row, minus the sum over the row of `log pred` with the row's class column replaced by `0`,
  divided by 32000 — the reference by a scatter and one sum per row, the kernel by a grid of 16 × 10 points that keeps
  128 lane-partial sums per row across a row block's ten points.

  Over the extended reals both results are one function of the arguments, the specification `MaskedLogLoss.loss`:
  sums over a commutative monoid may be regrouped, `0 - s` is `-s`, and both programs divide by the same constant;
  nothing about finiteness is used. The class words are taken in their label range `0 ≤ class < 32000` (the
  precondition's second conjunct): there the reference's python-style wrap of a negative index does nothing, and the
  kernel's 32-bit column test selects exactly the class column.

  The frames of the two kernel programs are the generated ones; the reference's frame is its generated run with the
  result dropped; the ideal pass rewrote nothing, so `preserves` is trivial.
-/
import proofs.«404897_j64183991272155_3_alg».proof.Defs
import proofs.«404897_j64183991272155_3_alg».proof.Proof.Gen.Kernel
import proofs.«404897_j64183991272155_3_alg».proof.Proof.Gen.Kernel.Skeleton
import proofs.«404897_j64183991272155_3_alg».proof.Proof.Gen.Kernel.Launch
import proofs.«404897_j64183991272155_3_alg».proof.Proof.Gen.Kernel.Points
import proofs.«404897_j64183991272155_3_alg».proof.Proof.Gen.Kernel.Frame
import proofs.«404897_j64183991272155_3_alg».proof.Proof.Gen.KernelIdeal
import proofs.«404897_j64183991272155_3_alg».proof.Proof.Gen.KernelIdeal.Skeleton
import proofs.«404897_j64183991272155_3_alg».proof.Proof.Gen.KernelIdeal.Launch
import proofs.«404897_j64183991272155_3_alg».proof.Proof.Gen.KernelIdeal.Points
import proofs.«404897_j64183991272155_3_alg».proof.Proof.Gen.KernelIdeal.Frame
import proofs.«404897_j64183991272155_3_alg».proof.Proof.Gen.ReferenceIdeal
import proofs.«404897_j64183991272155_3_alg».proof.Proof.Gen.ReferenceIdeal.Run
import proofs.«404897_j64183991272155_3_alg».proof.Proof.Gen.ReferenceIdeal.Read
import proofs.«404897_j64183991272155_3_alg».proof.Proof.Gen.Pre_finite_inputs
import proofs.«404897_j64183991272155_3_alg».proof.Proof.KernelValue
import proofs.«404897_j64183991272155_3_alg».proof.Proof.RefValue
import proofs.«404897_j64183991272155_3_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the masked row loss of the arguments: the kernel by its run read over the grid, the
    reference by its run read one operation at a time, the class words in range by the precondition. -/
theorem algebraic : Cert.algebraic_KernelIdeal_ReferenceIdeal := by
  intro m ρ m' ρ' hpre hagree
  refine ⟨fun c => Cert.MaskedLogLoss.loss (Cert.KernelIdeal.RowLoss.tab m c) (Cert.KernelIdeal.RowLoss.cls m c),
    Cert.KernelIdeal.RowLoss.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, (hagree c).1, (hagree c).2]
  exact Cert.MaskedLogLoss.Ref.reference_is_loss _ _ (Cert.MaskedLogLoss.Pre.cls_lt_of_pre _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
